-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x128 : Shape := ⟨2, ![100000, 128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : IVec S1600000 32) (main_arg1 : IVec S1600000 32) (main_arg2 : FVec F S100000x128 .f32) (main_arg3 : FVec F S128x128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S1600000 : Shape := ⟨1, ![1600000]⟩
abbrev S100000x128 : Shape := ⟨2, ![100000, 128]⟩
abbrev S128x128 : Shape := ⟨2, ![128, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩

abbrev nBuf : Space → Nat
  | .hbm => 34
  | .vmem => 13
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S100000x128, .f32⟩
  | .hbm, ⟨3, _⟩ => ⟨S128x128, .f32⟩
  | .hbm, ⟨4, _⟩ => ⟨S_, .f32⟩
  | .hbm, ⟨5, _⟩ => ⟨S1600000, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000x1, .f32⟩
  | .hbm, ⟨18, _⟩ => ⟨S128x128, .f32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S4000x128, .f32⟩
  | .local _ .vmem, ⟨12, _⟩ => ⟨S4000x128, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  transposes_S128x128_S128x128_1_0 : S128x128.Transposes [1, 0] S128x128
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S100000x128 : S_.BroadcastsInDim S100000x128 (![] : Fin 0 → Fin S100000x128.rank)
  shapeCasts_S4000x128_S4000x128 : S4000x128.ShapeCasts S4000x128
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg2) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1600000 : Shape := ⟨1, ![1600000]⟩
abbrev S100000x128 : Shape := ⟨2, ![100000, 128]⟩
abbrev S128x128 : Shape := ⟨2, ![128, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩

abbrev nBuf : Space → Nat
  | .hbm => 37
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S100000x128, .f32⟩
  | .hbm, ⟨3, _⟩ => ⟨S128x128, .f32⟩
  | .hbm, ⟨4, _⟩ => ⟨S_, .f32⟩
  | .hbm, ⟨5, _⟩ => ⟨S1600000, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000x1, .f32⟩
  | .hbm, ⟨18, _⟩ => ⟨S100000x128, .f32⟩
  | .hbm, ⟨19, _⟩ => ⟨S100000x128, .f32⟩
  | .hbm, ⟨20, _⟩ => ⟨S128x128, .f32⟩
  | .hbm, ⟨21, _⟩ => ⟨S100000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S100000x128, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S_S100000x128 : S_.BroadcastsInDim S100000x128 (![] : Fin 0 → Fin S100000x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.HostStretches.lean ====
/-
  What the host stretches of the idealized kernel's @main leave in the buffers the two regions read, as the
  reference's own stages of the argument arrays.

  Before the projecting region @main computes, on the host, the degree of every node (a scatter-add of ones over
  `row`), clamps it below by one, raises it to the power −1/2, and lays the result out as a column `norm`; and it
  transposes `W`. These are, operation for operation and literal for literal, the reference's first stages. Between
  the regions it wraps negative entries of `col`, gathers the projected rows at them and scatter-adds the gathered
  rows over `row`: the reference's gather and scatter-add, applied to whatever the projecting region left. No host
  operation writes `h`, `row`, `col` or the column `norm` after it is made, so the regions find them as launched
  (or as first computed).
-/
import proofs.«175555_j8160437862602_1_alg».proof.Proof.Gen.KernelIdeal.Frame
import proofs.«175555_j8160437862602_1_alg».proof.Proof.Gen.ReferenceIdeal.Read

noncomputable section

namespace Cert.KernelIdeal.Result

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At the projecting region's entry -/

/-- `h` reaches the projecting region as launched. -/
theorem entry0_h (c : Dev nD) : W3 m ρ c (Proc.devRef .tc main_arg2) = m ((c : Thread nD τ).loc main_arg2) := by
  dsimp only [W3, W2, W1, W0, hostOps0, hostOps0_1, hostOps0_2]
  after_results

/-- The column `norm` at the projecting region's entry is the reference's stage of `row`. -/
theorem entry0_norm (c : Dev nD) :
    W3 m ρ c (Proc.devRef .tc main_v7) = Cert.ReferenceIdeal.Read.val_main_v7 (F := F) (m ((c : Thread nD τ).loc main_arg0)) := by
  dsimp only [W3, W2, W1, W0, hostOps0, hostOps0_1, hostOps0_2]
  after_results
  rfl

/-- The transposed weight at the projecting region's entry is the reference's stage of `W`. -/
theorem entry0_wt (c : Dev nD) :
    W3 m ρ c (Proc.devRef .tc main_v8) = Cert.ReferenceIdeal.Read.val_main_v10 (F := F) (m ((c : Thread nD τ).loc main_arg3)) := by
  dsimp only [W3, W2, W1, W0, hostOps0, hostOps0_1, hostOps0_2]
  after_results
  rfl

/-! ## At the renormalizing region's entry -/

/-- `row` and `col` pass the projecting region untouched. -/
theorem exit0_row (c : Dev nD) : W4 m ρ c (Proc.devRef .tc main_arg0) = m ((c : Thread nD τ).loc main_arg0) :=
  (W4_of_ne m ρ c main_arg0 (by decide)).trans (by
    dsimp only [W3, W2, W1, W0, hostOps0, hostOps0_1, hostOps0_2]
    after_results)
theorem exit0_col (c : Dev nD) : W4 m ρ c (Proc.devRef .tc main_arg1) = m ((c : Thread nD τ).loc main_arg1) :=
  (W4_of_ne m ρ c main_arg1 (by decide)).trans (by
    dsimp only [W3, W2, W1, W0, hostOps0, hostOps0_1, hostOps0_2]
    after_results)

/-- The projecting region only reads the column `norm` (its second window is an input): it leaves it as found. -/
theorem exit0_norm (c : Dev nD) : W4 m ρ c (Proc.devRef .tc main_v7) = W3 m ρ c (Proc.devRef .tc main_v7) :=
  (W4_arr m ρ c 1).trans (((dat0 (V3 m ρ) c).arrAt_in 1 rfl _).trans (A_eq0 (V3 m ρ) c 1))

/-- The column `norm` reaches the renormalizing region as the projecting region found it. -/
theorem entry1_norm (c : Dev nD) :
    W5 m ρ c (Proc.devRef .tc main_v7) = Cert.ReferenceIdeal.Read.val_main_v7 (F := F) (m ((c : Thread nD τ).loc main_arg0)) := by
  have h : W5 m ρ c (Proc.devRef .tc main_v7) = W4 m ρ c (Proc.devRef .tc main_v7) := by
    dsimp only [W5, hostOps1]
    after_results
  rw [h, exit0_norm]
  exact entry0_norm m ρ c

/-- The messages at the renormalizing region's entry: the reference's gather and scatter-add of whatever array `x` the
    projecting region left, once that array is the reference's projected rows. -/
theorem entry1_msg (c : Dev nD)
    (hx : W4 m ρ c (Proc.devRef .tc main_v9)
      = Cert.ReferenceIdeal.Read.val_main_v11 (F := F) (m ((c : Thread nD τ).loc main_arg0)) (m ((c : Thread nD τ).loc main_arg2)) (m ((c : Thread nD τ).loc main_arg3))) :
    W5 m ρ c (Proc.devRef .tc main_v19)
      = Cert.ReferenceIdeal.Read.val_main_v21 (F := F) (m ((c : Thread nD τ).loc main_arg0)) (m ((c : Thread nD τ).loc main_arg1)) (m ((c : Thread nD τ).loc main_arg2)) (m ((c : Thread nD τ).loc main_arg3)) := by
  dsimp only [W5, hostOps1]
  after_results
  rw [hx, exit0_row, exit0_col]
  rfl

end Cert.KernelIdeal.Result

end
-- ==== Proof.Payloads.lean ====
/-
  The two kernel bodies' arithmetic, read at one index of the output block, at the exact instance.

  The projecting body multiplies its 4000 × 128 block of `h` by the block's column of `norm` (broadcast along the
  lanes), and multiplies the product by the whole 128 × 128 matrix `wt`; the two roundings to bf16 in front of the
  matrix unit are the identity on exact values, and the matrix unit accumulates into a zero splat, so entry (p, j) is
  the plain sum over k of (h[p, k] · norm[p, 0]) · wt[k, j]. The renormalizing body multiplies its block of `msg` by
  the same broadcast column: entry (p, j) is msg[p, j] · norm[p, 0].
-/
import proofs.«175555_j8160437862602_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.SL.Sem

/-! ## Coordinates inside a block -/

/-- Entry (p, k) of a 4000 × 128 block, p the row of `j`. -/
abbrev rowAt (j : S4000x128.Idx) (k : Fin 128) : S4000x128.Idx := fun a => match a with
  | ⟨0, _⟩ => ⟨(j 0).val, (j 0).isLt⟩
  | ⟨1, _⟩ => ⟨k.val, k.isLt⟩
/-- Entry (p, 0) of the block's 4000 × 1 column, p the row of `j`. -/
abbrev colAt (j : S4000x128.Idx) : S4000x1.Idx := fun a => match a with
  | ⟨0, _⟩ => ⟨(j 0).val, (j 0).isLt⟩
  | ⟨1, _⟩ => ⟨0, Nat.one_pos⟩
/-- Entry (k, q) of the 128 × 128 matrix, q the lane of `j`. -/
abbrev matAt (j : S4000x128.Idx) (k : Fin 128) : S128x128.Idx := fun a => match a with
  | ⟨0, _⟩ => ⟨k.val, k.isLt⟩
  | ⟨1, _⟩ => ⟨(j 1).val, (j 1).isLt⟩

/-! ## The column broadcast along the lanes -/

/-- The 4000 × 1 column broadcast to 4000 × 128 reads, at (p, q), the column's entry (p, 0). -/
theorem column_broadcast_apply {α : Type} (x : S4000x1.Idx → α) (j : S4000x128.Idx) :
    broadcastTo S4000x128 x broadcasts_S4000x1_S4000x128 j = x (colAt j) :=
  broadcastTo_apply x broadcasts_S4000x1_S4000x128 j (colAt j) (fun a => match a with
    | ⟨0, _⟩ => by show (j 0).val = if (4000 : Nat) = 1 then 0 else (j 0).val; rw [if_neg (by decide)]
    | ⟨1, _⟩ => by show 0 = if (1 : Nat) = 1 then 0 else (j 1).val; rw [if_pos rfl])

/-! ## The matrix unit's contraction, re-indexed by its one coordinate -/

abbrev dotBlk := dot_S4000x128_S128x128_S4000x128_1_0_0_1_n_n

theorem lhs_row (j : S4000x128.Idx) (q : dot_S4000x128_S128x128_S4000x128_1_0_0_1_n_n.contr.Idx) :
    (dot_S4000x128_S128x128_S4000x128_1_0_0_1_n_n.lhsIdx j q 0).val = (j 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_contr (j : S4000x128.Idx) (q : dot_S4000x128_S128x128_S4000x128_1_0_0_1_n_n.contr.Idx) :
    (dot_S4000x128_S128x128_S4000x128_1_0_0_1_n_n.lhsIdx j q 1).val = (q ⟨0, by decide⟩).val :=
  dot_S4000x128_S128x128_S4000x128_1_0_0_1_n_n.lhsIdx_val_of_single rfl j q
theorem rhs_contr (j : S4000x128.Idx) (q : dot_S4000x128_S128x128_S4000x128_1_0_0_1_n_n.contr.Idx) :
    (dot_S4000x128_S128x128_S4000x128_1_0_0_1_n_n.rhsIdx j q 0).val = (q ⟨0, by decide⟩).val :=
  dot_S4000x128_S128x128_S4000x128_1_0_0_1_n_n.rhsIdx_val_of_single rfl j q
theorem rhs_lane (j : S4000x128.Idx) (q : dot_S4000x128_S128x128_S4000x128_1_0_0_1_n_n.contr.Idx) :
    (dot_S4000x128_S128x128_S4000x128_1_0_0_1_n_n.rhsIdx j q 1).val = (j 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block product into a zero accumulator, at (p, q): the sum over k of left[p, k] · right[k, q]. -/
theorem block_product_apply (l : FVec Ideal S4000x128 .bf16) (r : FVec Ideal S128x128 .bf16) (j : S4000x128.Idx) :
    matmul dot_S4000x128_S128x128_S4000x128_1_0_0_1_n_n none l r (constant S4000x128 .f32 0x00000000#32) j
      = ∑ k : Fin 128, l (rowAt j k) * r (matAt j k) := by
  show FloatOps.matmul dot_S4000x128_S128x128_S4000x128_1_0_0_1_n_n none l r (constant S4000x128 .f32 0x00000000#32) j = _
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx j ((ValueIdx.contrEquiv1 dot_S4000x128_S128x128_S4000x128_1_0_0_1_n_n 128 rfl rfl).symm k) = rowAt j k := funext fun a => Fin.ext (by
    match a with
    | ⟨0, _⟩ => exact lhs_row _ _
    | ⟨1, _⟩ => exact (lhs_contr _ _).trans hk)
  have er : dot_S4000x128_S128x128_S4000x128_1_0_0_1_n_n.rhsIdx j ((ValueIdx.contrEquiv1 dot_S4000x128_S128x128_S4000x128_1_0_0_1_n_n 128 rfl rfl).symm k) = matAt j k := funext fun a => Fin.ext (by
    match a with
    | ⟨0, _⟩ => exact (rhs_contr _ _).trans hk
    | ⟨1, _⟩ => exact rhs_lane _ _)
  rw [el, er]

/-! ## The two payloads -/

/-- The projecting body's stored value at (p, q). -/
theorem project_apply (x0 : Vec Ideal S4000x128 .f32) (x1 : Vec Ideal S4000x1 .f32) (x2 : Vec Ideal S128x128 .f32) (j : S4000x128.Idx) :
    k0_pay1 (F := Ideal) x0 x1 x2 j = ∑ k : Fin 128, (x0 (rowAt j k) * x1 (colAt (rowAt j k))) * x2 (matAt j k) := by
  unfold k0_pay1
  rw [shapeCast_self, shapeCast_self, block_product_apply]
  refine Finset.sum_congr rfl fun k _ => ?_
  rw [ValueIdx.truncf_apply, ValueIdx.truncf_apply, ValueIdx.mulf_apply, column_broadcast_apply]

/-- The renormalizing body's stored value at (p, q). -/
theorem renorm_apply (x0 : Vec Ideal S4000x128 .f32) (x1 : Vec Ideal S4000x1 .f32) (j : S4000x128.Idx) :
    k1_pay1 (F := Ideal) x0 x1 j = x0 j * x1 (colAt j) := by
  unfold k1_pay1
  rw [shapeCast_self, shapeCast_self, ValueIdx.mulf_apply, column_broadcast_apply]

end Cert.KernelIdeal.Payload

end
-- ==== Proof.Region0Value.lean ====
/-
  The projecting region's output array, whole: the reference's projected rows.

  The region walks the 100000 rows of `h` in 25 blocks of 4000. At block t it reads rows 4000·t … 4000·t + 3999 of
  `h` and of the column `norm`, and the whole transposed weight, and writes back rows 4000·t … 4000·t + 3999 of its
  output. Entry (r, q) of what it writes is the sum over k of (h[r, k] · norm[r, 0]) · wt[k, q], which is entry (r, q)
  of the reference's product of the row-scaled `h` with the transposed weight; and every row lies in exactly the
  block r / 4000, so the 25 write-backs together fill the array.

  The per-point facts are stated for ANY contents `V` of the buffers at the region's entry, of which only three
  things are used: what `V` holds at `h`, at the column `norm` and at the transposed weight.
-/
import proofs.«175555_j8160437862602_1_alg».proof.Proof.HostStretches
import proofs.«175555_j8160437862602_1_alg».proof.Proof.Payloads

set_option maxRecDepth 16384

noncomputable section

namespace Cert.KernelIdeal.Result

open Cert.KernelIdeal Cert.KernelIdeal.Gen
open Idealize.ShloMosaic Idealize.ShloMosaic.TcCoe Idealize.SL.Sem
open Idealize.ShloMosaic.Pipeline (Dat Cfg Window)

theorem origin2 : (![0, 0] : Fin 2 → Nat) = fun _ => 0 := funext fun a => by fin_cases a <;> rfl

/-- The printed index maps over the 25 points: the blocks of `h`, of `norm` and of the output move together down the
    rows, one block per point, and never sideways; the weight's one block stays. -/
theorem maps0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section AtAnyEntry

variable (V : (c : Dev nD) → (b : Ref sig .tc) → Buf (Elt Ideal) ((c : Thread nD τ).loc b))

/-! ## The three input blocks at point `t`, read where the output block's entry (p, q) needs them -/

/-- Entry (p, k) of the block of `h` is `h` at the output entry's row and column k. -/
theorem read_h (c : Dev nD) (t : Fin cfg0.N) (j : ((cfg0.win 3).xblock (cfg0.grid.coords t)).Idx) (k : Fin 128) :
    iblk0 V c 0 t (Payload.rowAt j k)
      = V c main_arg2 (Cert.ReferenceIdeal.Read.lidx_main_v11 (((cfg0.win 3).blk t).view.emb j) k) := by
  obtain ⟨e00, e01, e10, e11, e20, e21, e30, e31⟩ := maps0 t
  show V c main_arg2 (((cfg0.win 0).blk t).view.emb (Payload.rowAt j k)) = _
  refine congrArg _ (funext fun a => Fin.ext ?_)
  match a with
  | ⟨0, _⟩ =>
    show win0_0.index t (0 : Fin 2) * 4000 + 1 * (j 0).val = win0_3.index t (0 : Fin 2) * 4000 + 1 * (j 0).val
    omega
  | ⟨1, _⟩ =>
    show win0_0.index t (1 : Fin 2) * 128 + 1 * k.val = k.val
    omega

/-- Entry (p, 0) of the block of the column `norm` is the column at the output entry's row. -/
theorem read_norm (c : Dev nD) (t : Fin cfg0.N) (j : ((cfg0.win 3).xblock (cfg0.grid.coords t)).Idx) (k : Fin 128) :
    iblk0 V c 1 t (Payload.colAt (Payload.rowAt j k))
      = V c main_v7 (Cert.ReferenceIdeal.Read.idx_main_v8 (Cert.ReferenceIdeal.Read.lidx_main_v11 (((cfg0.win 3).blk t).view.emb j) k)) := by
  obtain ⟨e00, e01, e10, e11, e20, e21, e30, e31⟩ := maps0 t
  show V c main_v7 (((cfg0.win 1).blk t).view.emb (Payload.colAt (Payload.rowAt j k))) = _
  refine congrArg _ (funext fun a => Fin.ext ?_)
  match a with
  | ⟨0, _⟩ =>
    show win0_1.index t (0 : Fin 2) * 4000 + 1 * (j 0).val = win0_3.index t (0 : Fin 2) * 4000 + 1 * (j 0).val
    omega
  | ⟨1, _⟩ =>
    show win0_1.index t (1 : Fin 2) * 1 + 1 * 0 = 0
    omega

/-- Entry (k, q) of the weight's one block is the transposed weight at row k and the output entry's lane. -/
theorem read_wt (c : Dev nD) (t : Fin cfg0.N) (j : ((cfg0.win 3).xblock (cfg0.grid.coords t)).Idx) (k : Fin 128) :
    iblk0 V c 2 t (Payload.matAt j k)
      = V c main_v8 (Cert.ReferenceIdeal.Read.ridx_main_v11 (((cfg0.win 3).blk t).view.emb j) k) := by
  obtain ⟨e00, e01, e10, e11, e20, e21, e30, e31⟩ := maps0 t
  show V c main_v8 (((cfg0.win 2).blk t).view.emb (Payload.matAt j k)) = _
  refine congrArg _ (funext fun a => Fin.ext ?_)
  match a with
  | ⟨0, _⟩ =>
    show win0_2.index t (0 : Fin 2) * 128 + 1 * k.val = k.val
    omega
  | ⟨1, _⟩ =>
    show win0_2.index t (1 : Fin 2) * 128 + 1 * (j 1).val = win0_3.index t (1 : Fin 2) * 128 + 1 * (j 1).val
    omega

/-! ## What the region leaves, at any entry contents -/

/-- The entry contents of the three arrays the region reads, at their literal shapes. -/
abbrev hOf (c : Dev nD) : S100000x128.Idx → EReal := V c main_arg2
abbrev normOf (c : Dev nD) : S100000x1.Idx → EReal := V c main_v7
abbrev wtOf (c : Dev nD) : S128x128.Idx → EReal := V c main_v8

/-- Row r of `h` scaled by `norm[r, 0]`, times the transposed weight: entry (r, q) as a sum over k. -/
def rowsProjected (c : Dev nD) : S100000x128.Idx → EReal := fun i =>
  ∑ k : Fin 128, (hOf V c (Cert.ReferenceIdeal.Read.lidx_main_v11 i k)
      * normOf V c (Cert.ReferenceIdeal.Read.idx_main_v8 (Cert.ReferenceIdeal.Read.lidx_main_v11 i k)))
    * wtOf V c (Cert.ReferenceIdeal.Read.ridx_main_v11 i k)

/-- WHAT POINT `t` WRITES BACK is block `t` of those projected rows. -/
theorem region0_writes (c : Dev nD) (t : Fin cfg0.N) :
    (dat0 V c).flushed 3 t = ((cfg0.win 3).blk t).view.read (Elt Ideal) (rowsProjected V c) := by
  show (cfg0.win 3).cut (grid0.coords t) ((dat0 V c).after 3 t) = _
  rw [after0_3]
  unfold out0_3
  rw [View.canon_unit_zero origin2]
  simp only [View.ld_unit_zero (S := S4000x128) origin2, View.ld_unit_zero (S := S4000x1) origin2, View.ld_unit_zero (S := S128x128) origin2]
  funext j
  show k0_pay1 (F := Ideal) (iblk0 V c 0 t) (iblk0 V c 1 t) (iblk0 V c 2 t) j = rowsProjected V c (((cfg0.win 3).blk t).view.emb j)
  refine (Payload.project_apply (iblk0 V c 0 t) (iblk0 V c 1 t) (iblk0 V c 2 t) j).trans ?_
  unfold rowsProjected
  refine Finset.sum_congr rfl fun k _ => ?_
  rw [read_h V c t j k, read_norm V c t j k, read_wt V c t j k]

/-- An index of the array is in point `t`'s block iff each coordinate is in the block's range on its axis. -/
theorem mem_block0 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v9).slice (win0_3.rect t)).set ↔ _
  rw [View.set_slice_whole, Rect.mem_set_unit]
  exact Iff.rfl

/-- Every entry of the array lies in the block of the point its row divided by 4000 names. -/
theorem region0_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 4000 < cfg0.N := by show (i 0).val / 4000 < grid0.N; rw [N_0]; omega
  obtain ⟨e00, e01, e10, e11, e20, e21, e30, e31⟩ := maps0 ⟨(i 0).val / 4000, hN⟩
  have e30' : win0_3.index ⟨(i 0).val / 4000, hN⟩ (0 : Fin 2) = (i 0).val / 4000 := e30
  refine ⟨⟨(i 0).val / 4000, hN⟩, flush0_3 _, ?_⟩
  rw [mem_block0]
  intro a
  match a with
  | ⟨0, _⟩ =>
    show win0_3.index ⟨(i 0).val / 4000, hN⟩ (0 : Fin 2) * 4000 ≤ (i 0).val ∧ (i 0).val < win0_3.index ⟨(i 0).val / 4000, hN⟩ (0 : Fin 2) * 4000 + 4000
    omega
  | ⟨1, _⟩ =>
    show win0_3.index ⟨(i 0).val / 4000, hN⟩ (1 : Fin 2) * 128 ≤ (i 1).val ∧ (i 1).val < win0_3.index ⟨(i 0).val / 4000, hN⟩ (1 : Fin 2) * 128 + 128
    omega

/-- THE ARRAY after the region: the projected rows, whole. -/
theorem region0_array (c : Dev nD) : (dat0 V c).arrAt 3 cfg0.N = rowsProjected V c :=
  (dat0 V c).arrAt_eq_of_cover 3 (rowsProjected V c) (fun t _ => region0_writes V c t) region0_cover

/-- Once the entry contents are named — `h` some array, the column the reference's `norm` of some `row`, the weight the
    reference's transpose of some `W` — the projected rows are the reference's product. -/
theorem rowsProjected_eq (c : Dev nD)
    (x0 : (⟨Cert.ReferenceIdeal.S1600000, .i32⟩ : BufTy).Contents (Elt Ideal))
    (x2 : (⟨Cert.ReferenceIdeal.S100000x128, .f32⟩ : BufTy).Contents (Elt Ideal))
    (x3 : (⟨Cert.ReferenceIdeal.S128x128, .f32⟩ : BufTy).Contents (Elt Ideal))
    (hh : V c main_arg2 = x2)
    (hn : V c main_v7 = Cert.ReferenceIdeal.Read.val_main_v7 (F := Ideal) x0)
    (hw : V c main_v8 = Cert.ReferenceIdeal.Read.val_main_v10 (F := Ideal) x3) :
    rowsProjected V c = Cert.ReferenceIdeal.Read.val_main_v11 (F := Ideal) x0 x2 x3 := by
  funext i
  refine Eq.trans ?_ (Cert.ReferenceIdeal.Read.val_main_v11_apply x0 x2 x3 i).symm
  unfold rowsProjected hOf normOf wtOf
  refine Finset.sum_congr rfl fun k _ => ?_
  rw [Cert.ReferenceIdeal.Read.val_main_v9_apply, Cert.ReferenceIdeal.Read.val_main_v8_apply, hh, hn, hw]
  rfl

end AtAnyEntry

/-! ## At the entry contents the host stretches leave -/

variable (m : (ℓ : Loc nD τ sig) → Buf (Elt Ideal) ℓ) (ρ : Dev nD → PrngReg)

/-- THE PROJECTING REGION'S OUTPUT, as the next host stretch finds it: the reference's projected rows of the launch
    contents of `row`, `h` and `W`. -/
theorem exit0_projected (c : Dev nD) :
    W4 m ρ c (Proc.devRef .tc main_v9)
      = Cert.ReferenceIdeal.Read.val_main_v11 (F := Ideal) (m ((c : Thread nD τ).loc main_arg0)) (m ((c : Thread nD τ).loc main_arg2)) (m ((c : Thread nD τ).loc main_arg3)) :=
  (W4_arr m ρ c 3).trans ((region0_array (V3 m ρ) c).trans
    (rowsProjected_eq (V3 m ρ) c _ _ _ (entry0_h m ρ c) (entry0_norm m ρ c) (entry0_wt m ρ c)))

end Cert.KernelIdeal.Result

end
-- ==== Proof.Region1Value.lean ====
/-
  The renormalizing region's output array, whole: the reference's result.

  The region walks the 100000 rows of the messages in 25 blocks of 4000. At block t it reads rows
  4000·t … 4000·t + 3999 of the messages and of the column `norm` and writes back the same rows of its output, entry
  (r, q) being msg[r, q] · norm[r, 0]: the reference's last product, of the messages with the column broadcast along the
  lanes. Every row lies in the block r / 4000, so the 25 write-backs fill the array.

  As for the projecting region, the per-point facts are stated for ANY contents `V` of the buffers at the region's
  entry; only what `V` holds at the messages and at the column is used.
-/
import proofs.«175555_j8160437862602_1_alg».proof.Proof.Region0Value

set_option maxRecDepth 16384

noncomputable section

namespace Cert.KernelIdeal.Result

open Cert.KernelIdeal Cert.KernelIdeal.Gen
open Idealize.ShloMosaic Idealize.ShloMosaic.TcCoe Idealize.SL.Sem
open Idealize.ShloMosaic.Pipeline (Dat Cfg Window)

/-- The printed index maps over the 25 points: the blocks of the messages, of `norm` and of the output move together
    down the rows, one block per point, and never sideways. -/
theorem maps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

section AtAnyEntry

variable (V : (c : Dev nD) → (b : Ref sig .tc) → Buf (Elt Ideal) ((c : Thread nD τ).loc b))

/-! ## The two input blocks at point `t`, read where the output block's entry (p, q) needs them -/

/-- Entry (p, q) of the block of messages is the messages' array at the output entry's own place. -/
theorem read_msg (c : Dev nD) (t : Fin cfg1.N) (j : ((cfg1.win 2).xblock (cfg1.grid.coords t)).Idx) :
    iblk1 V c 0 t j = V c main_v19 (((cfg1.win 2).blk t).view.emb j) := by
  obtain ⟨e00, e01, e10, e11, e20, e21⟩ := maps1 t
  show V c main_v19 (((cfg1.win 0).blk t).view.emb j) = _
  refine congrArg _ (funext fun a => Fin.ext ?_)
  match a with
  | ⟨0, _⟩ =>
    show win1_0.index t (0 : Fin 2) * 4000 + 1 * (j 0).val = win1_2.index t (0 : Fin 2) * 4000 + 1 * (j 0).val
    omega
  | ⟨1, _⟩ =>
    show win1_0.index t (1 : Fin 2) * 128 + 1 * (j 1).val = win1_2.index t (1 : Fin 2) * 128 + 1 * (j 1).val
    omega

/-- Entry (p, 0) of the block of the column `norm` is the column at the output entry's row. -/
theorem read_norm1 (c : Dev nD) (t : Fin cfg1.N) (j : ((cfg1.win 2).xblock (cfg1.grid.coords t)).Idx) :
    iblk1 V c 1 t (Payload.colAt j)
      = V c main_v7 (Cert.ReferenceIdeal.Read.idx_main_v22 (((cfg1.win 2).blk t).view.emb j)) := by
  obtain ⟨e00, e01, e10, e11, e20, e21⟩ := maps1 t
  show V c main_v7 (((cfg1.win 1).blk t).view.emb (Payload.colAt j)) = _
  refine congrArg _ (funext fun a => Fin.ext ?_)
  match a with
  | ⟨0, _⟩ =>
    show win1_1.index t (0 : Fin 2) * 4000 + 1 * (j 0).val = win1_2.index t (0 : Fin 2) * 4000 + 1 * (j 0).val
    omega
  | ⟨1, _⟩ =>
    show win1_1.index t (1 : Fin 2) * 1 + 1 * 0 = 0
    omega

/-! ## What the region leaves, at any entry contents -/

/-- The entry contents of the two arrays the region reads, at their literal shapes. -/
abbrev msgIn (c : Dev nD) : S100000x128.Idx → EReal := V c main_v19
abbrev normIn (c : Dev nD) : S100000x1.Idx → EReal := V c main_v7

/-- The messages, each row r scaled by `norm[r, 0]`. -/
def renormed (c : Dev nD) : S100000x128.Idx → EReal := fun i =>
  msgIn V c i * normIn V c (Cert.ReferenceIdeal.Read.idx_main_v22 i)

/-- WHAT POINT `t` WRITES BACK is block `t` of the renormalized messages. -/
theorem region1_writes (c : Dev nD) (t : Fin cfg1.N) :
    (dat1 V c).flushed 2 t = ((cfg1.win 2).blk t).view.read (Elt Ideal) (renormed V c) := by
  show (cfg1.win 2).cut (grid1.coords t) ((dat1 V c).after 2 t) = _
  rw [after1_2]
  unfold out1_2
  rw [View.canon_unit_zero origin2]
  simp only [View.ld_unit_zero (S := S4000x128) origin2, View.ld_unit_zero (S := S4000x1) origin2]
  funext j
  show k1_pay1 (F := Ideal) (iblk1 V c 0 t) (iblk1 V c 1 t) j = renormed V c (((cfg1.win 2).blk t).view.emb j)
  refine (Payload.renorm_apply (iblk1 V c 0 t) (iblk1 V c 1 t) j).trans ?_
  unfold renormed
  rw [read_msg V c t j, read_norm1 V c t j]

/-- An index of the array is in point `t`'s block iff each coordinate is in the block's range on its axis. -/
theorem mem_block1 (t : Fin cfg1.N) (i : S100000x128.Idx) :
    i ∈ ((cfg1.win 2).blk t).view.set ↔ ∀ a : Fin 2, win1_2.index t a * S4000x128.size a ≤ (i a).val ∧ (i a).val < win1_2.index t a * S4000x128.size a + S4000x128.size a := by
  show i ∈ ((View.whole main_v20).slice (win1_2.rect t)).set ↔ _
  rw [View.set_slice_whole, Rect.mem_set_unit]
  exact Iff.rfl

/-- Every entry of the array lies in the block of the point its row divided by 4000 names. -/
theorem region1_cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : (i 0).val / 4000 < cfg1.N := by show (i 0).val / 4000 < grid1.N; rw [N_1]; omega
  obtain ⟨e00, e01, e10, e11, e20, e21⟩ := maps1 ⟨(i 0).val / 4000, hN⟩
  have e20' : win1_2.index ⟨(i 0).val / 4000, hN⟩ (0 : Fin 2) = (i 0).val / 4000 := e20
  refine ⟨⟨(i 0).val / 4000, hN⟩, flush1_2 _, ?_⟩
  rw [mem_block1]
  intro a
  match a with
  | ⟨0, _⟩ =>
    show win1_2.index ⟨(i 0).val / 4000, hN⟩ (0 : Fin 2) * 4000 ≤ (i 0).val ∧ (i 0).val < win1_2.index ⟨(i 0).val / 4000, hN⟩ (0 : Fin 2) * 4000 + 4000
    omega
  | ⟨1, _⟩ =>
    show win1_2.index ⟨(i 0).val / 4000, hN⟩ (1 : Fin 2) * 128 ≤ (i 1).val ∧ (i 1).val < win1_2.index ⟨(i 0).val / 4000, hN⟩ (1 : Fin 2) * 128 + 128
    omega

/-- THE ARRAY after the region: the renormalized messages, whole. -/
theorem region1_array (c : Dev nD) : (dat1 V c).arrAt 2 cfg1.N = renormed V c :=
  (dat1 V c).arrAt_eq_of_cover 2 (renormed V c) (fun t _ => region1_writes V c t) region1_cover

/-- Once the entry contents are named — the messages the reference's scatter-add, the column the reference's
    `norm` — the renormalized messages are the reference's result. -/
theorem renormed_eq (c : Dev nD)
    (x0 x1 : (⟨Cert.ReferenceIdeal.S1600000, .i32⟩ : BufTy).Contents (Elt Ideal))
    (x2 : (⟨Cert.ReferenceIdeal.S100000x128, .f32⟩ : BufTy).Contents (Elt Ideal))
    (x3 : (⟨Cert.ReferenceIdeal.S128x128, .f32⟩ : BufTy).Contents (Elt Ideal))
    (hmsg : V c main_v19 = Cert.ReferenceIdeal.Read.val_main_v21 (F := Ideal) x0 x1 x2 x3)
    (hn : V c main_v7 = Cert.ReferenceIdeal.Read.val_main_v7 (F := Ideal) x0) :
    renormed V c = Cert.ReferenceIdeal.Read.val_main_v23 (F := Ideal) x0 x1 x2 x3 := by
  funext i
  unfold renormed msgIn normIn
  rw [Cert.ReferenceIdeal.Read.val_main_v23_apply, Cert.ReferenceIdeal.Read.val_main_v22_apply, hmsg, hn]
  rfl

end AtAnyEntry

/-! ## At the entry contents the middle host stretch leaves -/

variable (m : (ℓ : Loc nD τ sig) → Buf (Elt Ideal) ℓ) (ρ : Dev nD → PrngReg)

/-- THE RESULT: the last boundary's contents at the result buffer are the reference's result of the launch contents
    of the four arguments. -/
theorem exit1_result (c : Dev nD) :
    W6 m ρ c (Proc.devRef .tc main_v20)
      = Cert.ReferenceIdeal.Read.val_main_v23 (F := Ideal) (m ((c : Thread nD τ).loc main_arg0)) (m ((c : Thread nD τ).loc main_arg1)) (m ((c : Thread nD τ).loc main_arg2)) (m ((c : Thread nD τ).loc main_arg3)) :=
  (W6_arr m ρ c 2).trans ((region1_array (V5 m ρ) c).trans
    (renormed_eq (V5 m ρ) c _ _ _ _ (entry1_msg m ρ c (exit0_projected m ρ c)) (entry1_norm m ρ c)))

end Cert.KernelIdeal.Result

end
-- ==== Proof.lean ====
/-
  Degree-normalized message passing over a graph of 100000 nodes and 1600000 edges, as a tiled kernel, against its plain
  reference: equal over the extended reals.

  Both programs compute, for every node i, norm[i] · Σ over the edges e with row[e] = i of x[col[e]], where
  norm = max(1, degree)^(−1/2), degree the number of edges with that row, and x = (h scaled row-wise by norm) · Wᵀ. The
  degree, its clamp and power, the transpose of W, the wrap of negative entries of `col`, the gather of the rows of x
  and the scatter-add over `row` are the same host operations, with the same literal words, in both. They differ in
  two places only. The kernel forms x in 25 blocks of 4000 rows, rounding the scaled rows and the weight to bf16 on the
  way into the matrix unit, which accumulates into a zero block; on exact values the roundings are the identity and the
  block product of rows 4000·t … 4000·t + 3999 is those rows of the whole product, so the 25 blocks written back are
  the reference's x. And it forms the final product with the broadcast column in the same 25 blocks of rows, each the
  corresponding rows of the reference's product. No law of arithmetic beyond reading both sides at an index is used, so
  the finiteness of the inputs is never opened.

  The two frames of the kernel are the generated ones; the reference's is its generated run with the result dropped;
  nothing was rewritten by the idealization, so it preserves trivially; and for the value the kernel's run is taken
  once more with its result buffer named (KernelRun), the host stretches are read as the reference's own stages
  (HostStretches), and each region's output array is identified whole (Payloads, Region0Value, Region1Value).
-/
import proofs.«175555_j8160437862602_1_alg».proof.Defs
import proofs.«175555_j8160437862602_1_alg».proof.Proof.Gen.Kernel
import proofs.«175555_j8160437862602_1_alg».proof.Proof.Gen.Kernel.Skeleton
import proofs.«175555_j8160437862602_1_alg».proof.Proof.Gen.Kernel.Launch
import proofs.«175555_j8160437862602_1_alg».proof.Proof.Gen.Kernel.Points
import proofs.«175555_j8160437862602_1_alg».proof.Proof.Gen.Kernel.Frame
import proofs.«175555_j8160437862602_1_alg».proof.Proof.Gen.KernelIdeal
import proofs.«175555_j8160437862602_1_alg».proof.Proof.Gen.KernelIdeal.Skeleton
import proofs.«175555_j8160437862602_1_alg».proof.Proof.Gen.KernelIdeal.Launch
import proofs.«175555_j8160437862602_1_alg».proof.Proof.Gen.KernelIdeal.Points
import proofs.«175555_j8160437862602_1_alg».proof.Proof.Gen.KernelIdeal.Frame
import proofs.«175555_j8160437862602_1_alg».proof.Proof.Gen.ReferenceIdeal
import proofs.«175555_j8160437862602_1_alg».proof.Proof.Gen.Pre_finite_inputs
import proofs.«175555_j8160437862602_1_alg».proof.Proof.Gen.ReferenceIdeal.Run
import proofs.«175555_j8160437862602_1_alg».proof.Proof.Gen.ReferenceIdeal.Read
import proofs.«175555_j8160437862602_1_alg».proof.Proof.KernelRun
import proofs.«175555_j8160437862602_1_alg».proof.Proof.Region1Value
import Idealize.ShloMosaic.Adequacy
import Idealize.ShloMosaic.Init

noncomputable section

namespace Cert.Proof

open Idealize.ShloMosaic Idealize.ShloMosaic.TcCoe Idealize.SL.Sem

/-- The kernel as printed runs and leaves its arguments. -/
theorem frame_kernel : Cert.frame_Kernel := fun m ρ _ => Cert.Kernel.Gen.frame m ρ

/-- The kernel read over the extended reals runs and leaves its arguments. -/
theorem frame_kernel_ideal : Cert.frame_KernelIdeal := fun m ρ _ => Cert.KernelIdeal.Gen.frame m ρ

/-- The reference runs and leaves its arguments: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the four arguments both programs end with the reference's result of them: the kernel's
    last boundary holds it at the result buffer, and the reference's run states it of its own arguments, which are the
    kernel's. -/
theorem algebraic : Cert.algebraic_KernelIdeal_ReferenceIdeal := by
  intro m ρ m' ρ' _ hagree
  refine ⟨fun c => Cert.ReferenceIdeal.Read.val_main_v23 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Result.exit1_result m ρ c), (h c).2⟩)
      (Cert.KernelIdeal.Result.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v23_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
